-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S16x2048x2048 : Shape := ⟨3, ![16, 2048, 2048]⟩
abbrev S32x32 : Shape := ⟨2, ![32, 32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S32768x32 .f32) (main_arg1 : FVec F S16x2048x2048 .f32) (main_arg2 : FVec F S32x32 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S32768x32 : Shape := ⟨2, ![32768, 32]⟩
abbrev S16x2048x2048 : Shape := ⟨3, ![16, 2048, 2048]⟩
abbrev S32x32 : Shape := ⟨2, ![32, 32]⟩
abbrev S16x2048x32 : Shape := ⟨3, ![16, 2048, 32]⟩
abbrev S1x512x2048 : Shape := ⟨3, ![1, 512, 2048]⟩
abbrev S1x2048x32 : Shape := ⟨3, ![1, 2048, 32]⟩
abbrev S1x512x32 : Shape := ⟨3, ![1, 512, 32]⟩
abbrev S512x2048 : Shape := ⟨2, ![512, 2048]⟩
abbrev S2048x32 : Shape := ⟨2, ![2048, 32]⟩
abbrev S512x32 : Shape := ⟨2, ![512, 32]⟩

abbrev nBuf : Space → Nat
  | .hbm => 6
  | .vmem => 9
  | .smem => 0
  | _ => 0

abbrev bufTy : (tb : Table) → Fin (tcTables nBuf tb) → BufTy
  | .hbm, ⟨0, _⟩ => ⟨S32768x32, .f32⟩
  | .hbm, ⟨1, _⟩ => ⟨S16x2048x2048, .f32⟩
  | .hbm, ⟨2, _⟩ => ⟨S32x32, .f32⟩
  | .hbm, ⟨3, _⟩ => ⟨S16x2048x32, .f32⟩
  | .hbm, ⟨4, _⟩ => ⟨S16x2048x32, .f32⟩
  | .hbm, ⟨5, _⟩ => ⟨S32768x32, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x32, .f32⟩
  | .local _ .vmem, ⟨3, _⟩ => ⟨S1x2048x32, .f32⟩
  | .local _ .vmem, ⟨4, _⟩ => ⟨S1x512x32, .f32⟩
  | .local _ .vmem, ⟨5, _⟩ => ⟨S1x512x32, .f32⟩
  | .local _ .vmem, ⟨6, _⟩ => ⟨S32x32, .f32⟩
  | .local _ .vmem, ⟨7, _⟩ => ⟨S1x512x32, .f32⟩
  | .local _ .vmem, ⟨8, _⟩ => ⟨S1x512x32, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32768x32_S16x2048x32 : S32768x32.ShapeCasts S16x2048x32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S32x32_S32x32_0_0 : ∀ a, (![0, 0] : Fin 2 → Nat) a + S32x32.size a ≤ S32x32.size a
  h_S32x32 : 0 < S32x32.numel
  shapeCasts_S512x32_S1x512x32 : S512x32.ShapeCasts S1x512x32
  shapeCasts_S16x2048x32_S32768x32 : S16x2048x32.ShapeCasts S32768x32
  dot_S512x2048_S2048x32_S512x32_1_0_0_1_n_n_wf : DotDims.WF S512x2048 S2048x32 S512x32 [1] [0] [0] [1] [] []
  dot_S512x32_S32x32_S512x32_1_0_0_1_n_n_wf : DotDims.WF S512x32 S32x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S16x2048x32.size a
  hwx0_1 : ∀ i : grid0.Coords, EltTy.bits .f32 = 32 ∨ (Rect.block (s := S16x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S16x2048x32.size a
  hwx0_2 : ∀ i : grid0.Coords, EltTy.bits .f32 = 32 ∨ (Rect.block (s := S16x2048x32) S1x512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x32.size a ≤ S16x2048x32.size a
  hwx0_4 : ∀ i : grid0.Coords, EltTy.bits .f32 = 32 ∨ (Rect.block (s := S16x2048x32) S1x512x32.size (cc0_transform_4 i) (hinb0_4 i)).WholeWords (EltTy.packing .f32)

variable [Facts₀]

def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x32 : Shape := ⟨2, ![32768, 32]⟩
abbrev S16x2048x2048 : Shape := ⟨3, ![16, 2048, 2048]⟩
abbrev S32x32 : Shape := ⟨2, ![32, 32]⟩
abbrev S16x2048x32 : Shape := ⟨3, ![16, 2048, 32]⟩

abbrev nBuf : Space → Nat
  | .hbm => 12
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S16x2048x2048, .f32⟩
  | .hbm, ⟨2, _⟩ => ⟨S32x32, .f32⟩
  | .hbm, ⟨3, _⟩ => ⟨S32768x32, .f32⟩
  | .hbm, ⟨4, _⟩ => ⟨S16x2048x32, .f32⟩
  | .hbm, ⟨5, _⟩ => ⟨S16x2048x32, .f32⟩
  | .hbm, ⟨6, _⟩ => ⟨S16x2048x32, .f32⟩
  | .hbm, ⟨7, _⟩ => ⟨S32768x32, .f32⟩
  | .hbm, ⟨8, _⟩ => ⟨S32768x32, .f32⟩
  | .hbm, ⟨9, _⟩ => ⟨S16x2048x32, .f32⟩
  | .hbm, ⟨10, _⟩ => ⟨S16x2048x32, .f32⟩
  | .hbm, ⟨11, _⟩ => ⟨S32768x32, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S32768x32_S16x2048x32 : S32768x32.ShapeCasts S16x2048x32
  shapeCasts_S16x2048x32_S32768x32 : S16x2048x32.ShapeCasts S32768x32
  dot_S32768x32_S32x32_S32768x32_1_0_0_1_n_n_wf : DotDims.WF S32768x32 S32x32 S32768x32 [1] [0] [0] [1] [] []
  dot_S16x2048x2048_S16x2048x32_S16x2048x32_2_1_1_2_0_0_wf : DotDims.WF S16x2048x2048 S16x2048x32 S16x2048x32 [2] [1] [1] [2] [0] [0]

variable [Facts₀]

def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S16x2048x2048_S16x2048x32_S16x2048x32_2_1_1_2_0_0 : DotDims S16x2048x2048 S16x2048x32 S16x2048x32 where
  lhsContracting := [2]
  rhsContracting := [1]
  lhsNonContracting := [1]
  rhsNonContracting := [2]
  lhsBatch := [0]
  rhsBatch := [0]
  wf := dot_S16x2048x2048_S16x2048x32_S16x2048x32_2_1_1_2_0_0_wf

class Facts : Prop extends Facts₀ where

variable [Facts]
-- ==== Proof.K.Entry.lean ====
/-
  The program around its one kernel region.  Before the region the feature table is re-laid batch by batch
  (`main_v0`, a reshape of `main_arg0`); after it the kernel's batched result `main_v1` is re-laid as one row a
  node (`main_v2`).  Here: what each buffer holds when the region is entered, and the program reduced to the region
  followed by that last reshape.
-/
import proofs.«117576_g20993800142880_cont_8to1_1634_2_alg».proof.Proof.Gen.Kernel.Launch
import proofs.«117576_g20993800142880_cont_8to1_1634_2_alg».proof.Proof.Gen.Kernel.Skeleton
import proofs.«117576_g20993800142880_cont_8to1_1634_2_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents with the batched feature table written. -/
abbrev entryVal (c : Dev nD) : Valuation τ sig (Elt F) := StableHlo.after (List.flatten [hostOps0]) (fun b => m (c, b))
/-- The same at a TensorCore reference. -/
abbrev atEntry (c : Dev nD) (b : Ref sig .tc) : Buf (Elt F) ((c : Thread nD τ).loc b) := entryVal m c (Proc.devRef .tc b)

theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is the first reshape, the region, the last reshape: holding the buffers at the launch contents it
    reduces to the region, entered at `atEntry`, continued by the last reshape. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The first reshape writes only `main_v0`: every other buffer enters the region as launched. -/
theorem atEntry_of_ne (c : Dev nD) (b : Ref sig .tc) (hb : Proc.devRef (τ := τ) .tc b ≠ Proc.devRef .tc main_v0) :
    atEntry m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact hb))

theorem atEntry_arg0 (c : Dev nD) : atEntry m c main_arg0 = m ((c : Thread nD τ).loc main_arg0) :=
  atEntry_of_ne m c main_arg0 (StableHlo.devRef_ne_of_ne (by decide))
theorem atEntry_arg1 (c : Dev nD) : atEntry m c main_arg1 = m ((c : Thread nD τ).loc main_arg1) :=
  atEntry_of_ne m c main_arg1 (StableHlo.devRef_ne_of_ne (by decide))
theorem atEntry_arg2 (c : Dev nD) : atEntry m c main_arg2 = m ((c : Thread nD τ).loc main_arg2) :=
  atEntry_of_ne m c main_arg2 (StableHlo.devRef_ne_of_ne (by decide))

/-- The batched feature table at entry is the launched table re-laid. -/
theorem atEntry_v0 (c : Dev nD) :
    (atEntry m c main_v0 : S16x2048x32.Idx → Elt F .f32) = shapeCast S16x2048x32 (m ((c : Thread nD τ).loc main_arg0)) shapeCasts_S32768x32_S16x2048x32 := by
  dsimp only [atEntry, entryVal, hostOps0]
  simp only [List.flatten_cons, List.flatten_nil, List.append_nil]
  after_results
  rfl

end Cert.Kernel.Region

end
-- ==== Proof.K.Body.lean ====
/-
  One grid step of the kernel on its staging buffers: it loads the adjacency tile, the batch's feature block, the
  tile's own rows of the features and the projection, and stores the projected tile over the whole output buffer.
  The inputs' buffers are left as found; the output's ends at the stored tile whatever it held.
-/
import proofs.«117576_g20993800142880_cont_8to1_1634_2_alg».proof.Proof.K.Entry

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each buffer, as the body's accesses name it. -/
abbrev allAdj : Rect S1x512x2048 := Rect.unit (s := S1x512x2048) ![0, 0, 0] S1x512x2048.size inb_S1x512x2048_S1x512x2048_0_0_0
abbrev allFeat : Rect S1x2048x32 := Rect.unit (s := S1x2048x32) ![0, 0, 0] S1x2048x32.size inb_S1x2048x32_S1x2048x32_0_0_0
abbrev allRows : Rect S1x512x32 := Rect.unit (s := S1x512x32) ![0, 0, 0] S1x512x32.size inb_S1x512x32_S1x512x32_0_0_0
abbrev allProj : Rect S32x32 := Rect.unit (s := S32x32) ![0, 0] S32x32.size inb_S32x32_S32x32_0_0

/-- What a step leaves in the output buffer, from the four input buffers' contents: its one store, of the projected
    tile, over the whole buffer. -/
def stepOut (a : Vec F S1x512x2048 .f32) (xb : Vec F S1x2048x32 .f32) (xr : Vec F S1x512x32 .f32) (w : Vec F S32x32 .f32) :
    Vec F S1x512x32 .f32 :=
  View.canon [⟨allRows, k0_pay1 (View.ld a allAdj) (View.ld xb allFeat) (View.ld xr allRows) (View.ld w allProj)⟩]

/-- The one store covers the output buffer. -/
theorem store_covers (p0 : Vec F S1x512x32 .f32) (y : S1x512x32.Idx) :
    ∃ pc ∈ ([⟨allRows, p0⟩] : List (View.Piece (Elt F) S1x512x32 .f32)), y ∈ pc.1.set :=
  View.cover_of_tiled [⟨allRows, p0⟩] S1x512x32.size (by rfl) y

set_option maxHeartbeats 1000000 in
/-- A step on whole staging buffers — the inputs' at contents `a`, `xb`, `xr`, `w`, the output's at anything — runs to
    its continuation with the inputs' buffers unchanged and the output's at `stepOut`. -/
theorem step_runs (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x32 .f32) (harg5 : arg5.IsWhole)
    (arg6 : Memref sig .tc .vmem S1x512x32 .f32) (harg6 : arg6.IsWhole)
    (a : Vec F S1x512x2048 .f32) (xb : Vec F S1x2048x32 .f32) (xr : Vec F S1x512x32 .f32) (w : Vec F S32x32 .f32) (K : PUnit → sProp 𝕄) :
    iprop(owns (c : Thread nD τ) arg2 fullShare a ∗ owns (c : Thread nD τ) arg3 fullShare xb ∗ owns (c : Thread nD τ) arg4 fullShare xr
        ∗ owns (c : Thread nD τ) arg5 fullShare w ∗ (∃ d, owns (c : Thread nD τ) arg6 fullShare d)
        ∗ (iprop(owns (c : Thread nD τ) arg2 fullShare a ∗ owns (c : Thread nD τ) arg3 fullShare xb ∗ owns (c : Thread nD τ) arg4 fullShare xr
            ∗ owns (c : Thread nD τ) arg5 fullShare w ∗ owns (c : Thread nD τ) arg6 fullShare (stepOut a xb xr w)) -∗ K ⟨⟩))
      ⊢ wp frame (wpE (defs₀ (F := F)) Variants.none c none) E (cc0__sage_kern i arg2 harg2 arg3 harg3 arg4 harg4 arg5 harg5 arg6 harg6) K := by
  simp only [cc0__sage_kern_eq_skeleton]; unfold cc0__sage_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

end Cert.Kernel.Region

end
-- ==== Proof.K.Data.lean ====
/-
  The pipeline's proof data.  The region finds its arrays at the entry contents.  At grid point `t = (b, i)` the four
  input windows hold: rows `512 i …` of batch `b`'s adjacency; the whole of batch `b`'s features; rows `512 i …` of
  batch `b`'s features; the projection.  The second and third read ONE array, the batched feature table, so each holds
  half of its share.  The body leaves every input as found and the output window at the projected tile of the four.
-/
import proofs.«117576_g20993800142880_cont_8to1_1634_2_alg».proof.Proof.K.Body

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The tile point `t` stores, from the four input blocks there. -/
def tileAt (c : Dev nD) (t : Fin cfg0.N) : Vec F S1x512x32 .f32 :=
  stepOut (blockAt m c 0 t) (blockAt m c 1 t) (blockAt m c 2 t) (blockAt m c 3 t)

/-- The proof data of the one pipeline on core `c`. -/
def stepData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => tileAt m c t
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem entry_arrays (c : Dev nD) (w : Fin cfg0.W) : (stepData m 0 c).A w = atEntry m c (Pipeline.arrRef spec0 w) := by
  dsimp only [stepData]

theorem after_adj (c : Dev nD) (t : Fin cfg0.N) : (stepData m 0 c).after 0 t = blockAt m c 0 t := by dsimp only [stepData]
theorem after_feat (c : Dev nD) (t : Fin cfg0.N) : (stepData m 0 c).after 1 t = blockAt m c 1 t := by dsimp only [stepData]
theorem after_rows (c : Dev nD) (t : Fin cfg0.N) : (stepData m 0 c).after 2 t = blockAt m c 2 t := by dsimp only [stepData]
theorem after_proj (c : Dev nD) (t : Fin cfg0.N) : (stepData m 0 c).after 3 t = blockAt m c 3 t := by dsimp only [stepData]
theorem after_out (c : Dev nD) (t : Fin cfg0.N) : (stepData m 0 c).after 4 t = tileAt m c t := by dsimp only [stepData]

/-- The shares: the batched feature table's is halved between the two windows on it; every other array is held whole. -/
theorem share_adj (c : Dev nD) : (stepData m 0 c).share 0 = fullShare := by unfold Dat.share; rfl
theorem share_feat (c : Dev nD) : (stepData m 0 c).share 1 = fullShare.left := by unfold Dat.share; rfl
theorem share_rows (c : Dev nD) : (stepData m 0 c).share 2 = fullShare.right := by unfold Dat.share; rfl
theorem share_proj (c : Dev nD) : (stepData m 0 c).share 3 = fullShare := by unfold Dat.share; rfl
theorem share_out (c : Dev nD) : (stepData m 0 c).share 4 = fullShare := by unfold Dat.share; rfl

/-- An input window's current staging buffer holds its block at every point, fetched there or not: where it was not
    fetched its block index has not moved, and the body left the block in place. -/
theorem found_adj (c : Dev nD) (t : Fin cfg0.N) (d) : (stepData m 0 c).before 0 t d = blockAt m c 0 t :=
  ((stepData m 0 c).before_in_eq_fetched 0 rfl (fun _ => rfl) (fun _ _ _ => rfl)
    (fun t => by rw [after_adj]; unfold Dat.blockOf blockAt; rw [entry_arrays]; try rfl) t d).trans
    (by unfold Dat.fetched Dat.blockOf blockAt; rw [entry_arrays]; try rfl)
theorem found_feat (c : Dev nD) (t : Fin cfg0.N) (d) : (stepData m 0 c).before 1 t d = blockAt m c 1 t :=
  ((stepData m 0 c).before_in_eq_fetched 1 rfl (fun _ => rfl) (fun _ _ _ => rfl)
    (fun t => by rw [after_feat]; unfold Dat.blockOf blockAt; rw [entry_arrays]; try rfl) t d).trans
    (by unfold Dat.fetched Dat.blockOf blockAt; rw [entry_arrays]; try rfl)
theorem found_rows (c : Dev nD) (t : Fin cfg0.N) (d) : (stepData m 0 c).before 2 t d = blockAt m c 2 t :=
  ((stepData m 0 c).before_in_eq_fetched 2 rfl (fun _ => rfl) (fun _ _ _ => rfl)
    (fun t => by rw [after_rows]; unfold Dat.blockOf blockAt; rw [entry_arrays]; try rfl) t d).trans
    (by unfold Dat.fetched Dat.blockOf blockAt; rw [entry_arrays]; try rfl)
theorem found_proj (c : Dev nD) (t : Fin cfg0.N) (d) : (stepData m 0 c).before 3 t d = blockAt m c 3 t :=
  ((stepData m 0 c).before_in_eq_fetched 3 rfl (fun _ => rfl) (fun _ _ _ => rfl)
    (fun t => by rw [after_proj]; unfold Dat.blockOf blockAt; rw [entry_arrays]; try rfl) t d).trans
    (by unfold Dat.fetched Dat.blockOf blockAt; rw [entry_arrays]; try rfl)

/-- What the body is called with at point `t`, the windows one by one, -/
def stepPre (c : Dev nD) (t : Fin cfg0.N) : sProp 𝕄 :=
  iprop((stepData m 0 c).Φ t.castSucc ∗ (stepData m 0 c).owesAt () t.castSucc
    ∗ (∃ d, owns (c : Thread nD τ) (st0_0 t) fullShare ((stepData m 0 c).before 0 t d))
    ∗ (∃ d, owns (c : Thread nD τ) (st0_1 t) fullShare ((stepData m 0 c).before 1 t d))
    ∗ (∃ d, owns (c : Thread nD τ) (st0_2 t) fullShare ((stepData m 0 c).before 2 t d))
    ∗ (∃ d, owns (c : Thread nD τ) (st0_3 t) fullShare ((stepData m 0 c).before 3 t d))
    ∗ (∃ d, owns (c : Thread nD τ) (st0_4 t) fullShare ((stepData m 0 c).before 4 t d)))

/-- and what it returns. -/
def stepPost (c : Dev nD) (t : Fin cfg0.N) : sProp 𝕄 :=
  iprop((stepData m 0 c).Φ t.succ ∗ (stepData m 0 c).owesAt () t.succ
    ∗ owns (c : Thread nD τ) (st0_0 t) fullShare ((stepData m 0 c).after 0 t)
    ∗ owns (c : Thread nD τ) (st0_1 t) fullShare ((stepData m 0 c).after 1 t)
    ∗ owns (c : Thread nD τ) (st0_2 t) fullShare ((stepData m 0 c).after 2 t)
    ∗ owns (c : Thread nD τ) (st0_3 t) fullShare ((stepData m 0 c).after 3 t)
    ∗ owns (c : Thread nD τ) (st0_4 t) fullShare ((stepData m 0 c).after 4 t))

/-- The body at any point: the inputs' buffers hold their blocks, so the step's triple applies; the invariant and what the
    core owes pass through unread. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [found_adj, found_feat, found_rows, found_proj]
  rw [show (stepData m 0 c).Φ t.succ = (stepData m 0 c).Φ t.castSucc from rfl,
    show (stepData m 0 c).owesAt () t.succ = (stepData m 0 c).owesAt () t.castSucc from rfl,
    after_adj, after_feat, after_rows, after_proj, after_out]
  iintro ⟨HΦ, Ho, ⟨%d0, H0⟩, ⟨%d1, H1⟩, ⟨%d2, H2⟩, ⟨%d3, H3⟩, ⟨%d4, H4⟩⟩
  iapply (step_runs c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem step_obligation (c : Dev nD) : BodyObligation (stepData (F := F) m 0 c) (defs₀ (F := F)) Variants.none () Set.univ := fun t => by
  rw [bigSep_W0, bigSep_W0]
  exact step_sound m c t

end Cert.Kernel.Region

end
-- ==== Proof.K.Launch.lean ====
/-
  The launch.  The region's five windows sit on FOUR arrays: the batched feature table is read through two windows,
  the batch's whole block and the tile's own rows.  So the launch cannot hold every window's array at the full share:
  the table's share is split in two at entry, one half a window, both halves read-only, and joined again at exit,
  where the last reshape needs only the kernel's result (held whole) and its own fresh buffer.
-/
import proofs.«117576_g20993800142880_cont_8to1_1634_2_alg».proof.Proof.K.Data

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays at contents `G`, one by one at their shares: the adjacency, the two halves of the batched
    feature table, the projection, the result. -/
theorem arrays_open (c : Dev nD) (G : (w : Fin cfg0.W) → Buf (Elt F) ((cfg0.win w).arr.view.loc (c.tc : Thread nD τ))) :
    ((stepData m 0 c).arrays G : sProp 𝕄)
      = iprop((((c : Thread nD τ).loc main_arg1) ↦{fullShare} G 0)
          ∗ (((c : Thread nD τ).loc main_v0) ↦{fullShare.left} G 1)
          ∗ (((c : Thread nD τ).loc main_v0) ↦{fullShare.right} G 2)
          ∗ (((c : Thread nD τ).loc main_arg2) ↦{fullShare} G 3)
          ∗ (((c : Thread nD τ).loc main_v1) ↦{fullShare} G 4)) := by
  unfold Dat.arrays
  rw [bigSep_W0, share_adj, share_feat, share_rows, share_proj, share_out,
    (arr_whole0 0).set_eq_univ, (arr_whole0 1).set_eq_univ, (arr_whole0 3).set_eq_univ, (arr_whole0 4).set_eq_univ]

/-- The four buffers behind them, each whole, at contents `V`. -/
theorem arrBufs_open (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1)
          ∗ (((c : Thread nD τ).loc main_v0) ↦{fullShare} V main_v0)
          ∗ (((c : Thread nD τ).loc main_arg2) ↦{fullShare} V main_arg2)
          ∗ (((c : Thread nD τ).loc main_v1) ↦{fullShare} V main_v1)) := by
  unfold Pipeline.arrBufs
  exact bigSep_eq_bigSepL_of_eq [main_arg1, main_v0, main_arg2, main_v1] (by decide) (by decide) _

/-- At entry: the buffers behind the arrays, whole at the entry contents, make the windows' arrays — the batched feature
    table's points-to split in two along its share. -/
theorem entry_split (c : Dev nD) :
    (Pipeline.arrBufs (Ix := Unit) (Name := ℕ) (U := UR sig nD τ) (Lvl := ℕ) spec0 c (atEntry m c) : sProp 𝕄)
      ⊢ (stepData m 0 c).arrays ((stepData m 0 c).arrAt · 0) := by
  rw [arrays_open, arrBufs_open]
  iintro ⟨Ha, Hx, Hw, Ho⟩
  icases (pointsTo_share (PosShare.mem_left_op_right fullShare)).1 $$ Hx with ⟨Hl, Hr⟩
  isplitl [Ha]; · iexact Ha
  isplitl [Hl]; · iexact Hl
  isplitl [Hr]; · iexact Hr
  isplitl [Hw]; · iexact Hw
  iexact Ho

/-- What bypasses the region: the launched feature table and the result's buffer, as the entry finds them. -/
def bypass (c : Dev nD) : sProp 𝕄 :=
  iprop((((c : Thread nD τ).loc main_arg0) ↦{fullShare} atEntry m c main_arg0) ∗ (((c : Thread nD τ).loc main_v2) ↦{fullShare} atEntry m c main_v2))

/-- The kernel's batched result once every tile is written back. -/
def batchedOut (c : Dev nD) : S16x2048x32.Idx → Elt F .f32 := (stepData m 0 c).arrAt 4 cfg0.N

/-- The program's result: the batched result re-laid one row a node. -/
def nodeOut (c : Dev nD) : Buf (Elt F) ((c : Thread nD τ).loc main_v2) :=
  shapeCast S32768x32 (batchedOut m c) shapeCasts_S16x2048x32_S32768x32

/-- The same two buffers after the last reshape. -/
def bypassEnd (c : Dev nD) : sProp 𝕄 :=
  iprop((((c : Thread nD τ).loc main_arg0) ↦{fullShare} atEntry m c main_arg0) ∗ (((c : Thread nD τ).loc main_v2) ↦{fullShare} nodeOut m c))

/-- The buffers the last reshape touches. -/
abbrev lastRefs : Finset (DevRef τ sig) := {Proc.devRef .tc main_v1, Proc.devRef .tc main_v2}

/-- From the region's exit — the windows' arrays at their final contents, the bypassing buffers as at entry — the last
    reshape runs, reading the kernel's result and writing the program's, and hands everything back. -/
theorem last_reshape (c : Dev nD) (Q' : PUnit → sProp 𝕄) :
    iprop((iprop((stepData m 0 c).arrays ((stepData m 0 c).arrAt · cfg0.N) ∗ bypassEnd m c) -∗ Q' ⟨⟩)
        ∗ boundary (c.tc : Thread nD τ) ∗ (stepData m 0 c).arrays ((stepData m 0 c).arrAt · cfg0.N) ∗ bypass m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_open]
  unfold bypass bypassEnd
  simp only [Pipeline.chain_cons, Pipeline.chain_nil]
  have hS : ∀ op ∈ (hostOps1 : List (HloOp τ sig (Elt F))), op.bufs ⊆ lastRefs := by
    intro op hop
    simp only [hostOps1, List.mem_singleton] at hop
    subst hop
    exact (StableHlo.reshape_bufs ..).le
  have hf : ∀ op ∈ (hostOps1 : List (HloOp τ sig (Elt F))), op.fresh = ∅ :=
    fun op hop => (List.forall_iff_forall_mem.mp suffix_fresh) op hop
  have hne : (Proc.devRef (τ := τ) .tc main_v1 : DevRef τ sig) ≠ Proc.devRef .tc main_v2 := StableHlo.devRef_ne_of_ne (by decide)
  -- the entry valuation with the kernel's result at its final contents
  let W : Valuation τ sig (Elt F) := Function.update (entryVal m c) (Proc.devRef .tc main_v1) (batchedOut m c)
  have hW1 : W (Proc.devRef .tc main_v1) = batchedOut m c := Function.update_self ..
  have hW2 : W (Proc.devRef .tc main_v2) = atEntry m c main_v2 := Function.update_of_ne hne.symm ..
  have hheld : ∀ V' : Valuation τ sig (Elt F), (StableHlo.held (c.tc : Thread nD τ) lastRefs V' : sProp 𝕄)
      = iprop((((c : Thread nD τ).loc main_v1) ↦{fullShare} V' (Proc.devRef .tc main_v1)) ∗ (((c : Thread nD τ).loc main_v2) ↦{fullShare} V' (Proc.devRef .tc main_v2))) := by
    intro V'
    unfold StableHlo.held lastRefs
    rw [bigSep_insert (by rw [Finset.mem_singleton]; exact hne), bigSep_singleton]
    rfl
  -- the reshape leaves the kernel's result alone and writes the program's
  have hA1 : StableHlo.after hostOps1 W (Proc.devRef .tc main_v1) = batchedOut m c :=
    (StableHlo.after_of_forall_not_mem (b := Proc.devRef .tc main_v1) _ _ (List.forall_iff_forall_mem.mp (by
      simp only [hostOps1, List.Forall, StableHlo.reshape_writes, Finset.mem_singleton]
      exact hne))).trans hW1
  have hA2 : StableHlo.after hostOps1 W (Proc.devRef .tc main_v2) = nodeOut m c := by
    unfold nodeOut
    dsimp only [hostOps1]
    after_results
    rw [hW1]
    rfl
  have step := StableHlo.wp_seq (defs := Pipeline.defs (fun q => (cfgs q).toPCfg (Val := Elt F)) defs₀) (Ix := Unit) (Name := ℕ) (U := UR sig nD τ) (Lvl := ℕ)
    (Variants.lift Variants.none) none Set.univ c lastRefs (fun _ => (Pure.pure PUnit.unit : Prog _ PUnit)) (K := Q') hostOps1 hS hf W
  rw [hheld, hheld, hW1, hW2, hA1, hA2] at step
  iintro ⟨Hk, Hb, ⟨Ha, Hl, Hr, Hw, Ho⟩, ⟨H0, H2⟩⟩
  iapply step $$ [Hb Ho H2]
  · isplitl [Hb]; · iexact Hb
    isplitl [Ho]; · iexact Ho
    iexact H2
  iintro ⟨Hb, Ho, H2⟩
  rw [wp_pure]
  imodintro
  iapply Hk
  isplitl [Ha Hl Hr Hw Ho]
  · isplitl [Ha]; · iexact Ha
    isplitl [Hl]; · iexact Hl
    isplitl [Hr]; · iexact Hr
    isplitl [Hw]; · iexact Hw
    iexact Ho
  isplitl [H0]; · iexact H0
  iexact H2

/-- What the final memory is read for, beside the windows' arrays: the launched feature table still as found, and the
    program's result. -/
def endsWith (c : Dev nD) (s : MemSt nD τ sig (Elt F)) : Prop :=
  s.mem ((c.tc : Thread nD τ).loc main_arg0) = atEntry m c main_arg0 ∧ s.mem ((c.tc : Thread nD τ).loc main_v2) = nodeOut m c

/-- THE RUN.  From any memory with zero counters every weakly fair execution of the program terminates; the result
    buffer then holds the kernel's batched result re-laid one row a node, and the three arguments are as launched. -/
theorem region_run :
    θ_run defs (onTc (τ := τ) (main (F := F))) ⟨m, fun _ => 0, ρ⟩ (fun r => ∀ c : Dev nD,
      r.2.mem ((c.tc : Thread nD τ).loc main_v2) = nodeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_noSem_pf_tail (fun q => (cfgs q).toPCfg (Val := Elt F)) (fun q => (cfgs q).toPCfg_adm) (stepData m) () cellOf_inj 0
    winFacts₀0 (Pipeline.PreFacts.none _) emb₁ defs₀ Variants.none m ρ main (fun _ => Pipeline.chain [StableHlo.seq hostOps1])
    (hbody := fun c => (step_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := atEntry m) (hmain := main_around m Variants.none)
    (hsplit := entry_split m) (hpf := fun _ k => k.elim0)
    (X := fun _ => iprop(emp)) (Y := fun _ => iprop(emp)) (Z := bypass m) (Z' := bypassEnd m)
    (hX := fun c => by
      rw [Pipeline.unscopedRestP_none, unscopedRest0_eq]
      unfold bypass
      iintro ⟨H0, H2⟩
      isplitr; · iempintro
      isplitl [H0]; · iexact H0
      iexact H2)
    (hin := fun c => (show iprop(iprop(emp) ∗ _ ∗ (Pipeline.scopedRest spec0 c : sProp 𝕄)) ⊢ (Pipeline.scopedRest spec0 c : sProp 𝕄) from by
      iintro ⟨-, -, HR⟩
      iexact HR))
    (hout := fun c => (show (Pipeline.scopedRest spec0 c : sProp 𝕄) ⊢ iprop(iprop(emp) ∗ (Pipeline.scopedRest spec0 c : sProp 𝕄)) from by
      iintro HR
      isplitr; · iempintro
      iexact HR))
    (htail := last_reshape m)
    (QY := endsWith m)
    (hY := fun c s' => by
      unfold bypassEnd endsWith
      iintro ⟨-, ⟨H0, H2⟩, HSI⟩
      icombine HSI H0 gives %h0
      icombine HSI H2 gives %h2
      imodintro
      isplitr
      · ipureintro
        exact ⟨Buf.eq_of_forall_mem_univ h0, Buf.eq_of_forall_mem_univ h2⟩
      iexact HSI)
    (hQ := fun s h c => ⟨(h c).2.2.2, (h c).2.2.1.trans (atEntry_arg0 m c),
      (((h c).1 0).trans ((stepData m 0 c).arrAt_in 0 rfl _)).trans ((entry_arrays m c 0).trans (atEntry_arg1 m c)),
      (((h c).1 3).trans ((stepData m 0 c).arrAt_in 3 rfl _)).trans ((entry_arrays m c 3).trans (atEntry_arg2 m c))⟩)

end Cert.Kernel.Region

end
-- ==== Proof.KI.Entry.lean ====
/-
  The program around its one kernel region.  Before the region the feature table is re-laid batch by batch
  (`main_v0`, a reshape of `main_arg0`); after it the kernel's batched result `main_v1` is re-laid as one row a
  node (`main_v2`).  Here: what each buffer holds when the region is entered, and the program reduced to the region
  followed by that last reshape.
-/
import proofs.«117576_g20993800142880_cont_8to1_1634_2_alg».proof.Proof.Gen.KernelIdeal.Launch
import proofs.«117576_g20993800142880_cont_8to1_1634_2_alg».proof.Proof.Gen.KernelIdeal.Skeleton
import proofs.«117576_g20993800142880_cont_8to1_1634_2_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents with the batched feature table written. -/
abbrev entryVal (c : Dev nD) : Valuation τ sig (Elt F) := StableHlo.after (List.flatten [hostOps0]) (fun b => m (c, b))
/-- The same at a TensorCore reference. -/
abbrev atEntry (c : Dev nD) (b : Ref sig .tc) : Buf (Elt F) ((c : Thread nD τ).loc b) := entryVal m c (Proc.devRef .tc b)

theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is the first reshape, the region, the last reshape: holding the buffers at the launch contents it
    reduces to the region, entered at `atEntry`, continued by the last reshape. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The first reshape writes only `main_v0`: every other buffer enters the region as launched. -/
theorem atEntry_of_ne (c : Dev nD) (b : Ref sig .tc) (hb : Proc.devRef (τ := τ) .tc b ≠ Proc.devRef .tc main_v0) :
    atEntry m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact hb))

theorem atEntry_arg0 (c : Dev nD) : atEntry m c main_arg0 = m ((c : Thread nD τ).loc main_arg0) :=
  atEntry_of_ne m c main_arg0 (StableHlo.devRef_ne_of_ne (by decide))
theorem atEntry_arg1 (c : Dev nD) : atEntry m c main_arg1 = m ((c : Thread nD τ).loc main_arg1) :=
  atEntry_of_ne m c main_arg1 (StableHlo.devRef_ne_of_ne (by decide))
theorem atEntry_arg2 (c : Dev nD) : atEntry m c main_arg2 = m ((c : Thread nD τ).loc main_arg2) :=
  atEntry_of_ne m c main_arg2 (StableHlo.devRef_ne_of_ne (by decide))

/-- The batched feature table at entry is the launched table re-laid. -/
theorem atEntry_v0 (c : Dev nD) :
    (atEntry m c main_v0 : S16x2048x32.Idx → Elt F .f32) = shapeCast S16x2048x32 (m ((c : Thread nD τ).loc main_arg0)) shapeCasts_S32768x32_S16x2048x32 := by
  dsimp only [atEntry, entryVal, hostOps0]
  simp only [List.flatten_cons, List.flatten_nil, List.append_nil]
  after_results
  rfl

end Cert.KernelIdeal.Region

end
-- ==== Proof.KI.Body.lean ====
/-
  One grid step of the kernel on its staging buffers: it loads the adjacency tile, the batch's feature block, the
  tile's own rows of the features and the projection, and stores the projected tile over the whole output buffer.
  The inputs' buffers are left as found; the output's ends at the stored tile whatever it held.
-/
import proofs.«117576_g20993800142880_cont_8to1_1634_2_alg».proof.Proof.KI.Entry

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each buffer, as the body's accesses name it. -/
abbrev allAdj : Rect S1x512x2048 := Rect.unit (s := S1x512x2048) ![0, 0, 0] S1x512x2048.size inb_S1x512x2048_S1x512x2048_0_0_0
abbrev allFeat : Rect S1x2048x32 := Rect.unit (s := S1x2048x32) ![0, 0, 0] S1x2048x32.size inb_S1x2048x32_S1x2048x32_0_0_0
abbrev allRows : Rect S1x512x32 := Rect.unit (s := S1x512x32) ![0, 0, 0] S1x512x32.size inb_S1x512x32_S1x512x32_0_0_0
abbrev allProj : Rect S32x32 := Rect.unit (s := S32x32) ![0, 0] S32x32.size inb_S32x32_S32x32_0_0

/-- What a step leaves in the output buffer, from the four input buffers' contents: its one store, of the projected
    tile, over the whole buffer. -/
def stepOut (a : Vec F S1x512x2048 .f32) (xb : Vec F S1x2048x32 .f32) (xr : Vec F S1x512x32 .f32) (w : Vec F S32x32 .f32) :
    Vec F S1x512x32 .f32 :=
  View.canon [⟨allRows, k0_pay1 (View.ld a allAdj) (View.ld xb allFeat) (View.ld xr allRows) (View.ld w allProj)⟩]

/-- The one store covers the output buffer. -/
theorem store_covers (p0 : Vec F S1x512x32 .f32) (y : S1x512x32.Idx) :
    ∃ pc ∈ ([⟨allRows, p0⟩] : List (View.Piece (Elt F) S1x512x32 .f32)), y ∈ pc.1.set :=
  View.cover_of_tiled [⟨allRows, p0⟩] S1x512x32.size (by rfl) y

set_option maxHeartbeats 1000000 in
/-- A step on whole staging buffers — the inputs' at contents `a`, `xb`, `xr`, `w`, the output's at anything — runs to
    its continuation with the inputs' buffers unchanged and the output's at `stepOut`. -/
theorem step_runs (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x32 .f32) (harg5 : arg5.IsWhole)
    (arg6 : Memref sig .tc .vmem S1x512x32 .f32) (harg6 : arg6.IsWhole)
    (a : Vec F S1x512x2048 .f32) (xb : Vec F S1x2048x32 .f32) (xr : Vec F S1x512x32 .f32) (w : Vec F S32x32 .f32) (K : PUnit → sProp 𝕄) :
    iprop(owns (c : Thread nD τ) arg2 fullShare a ∗ owns (c : Thread nD τ) arg3 fullShare xb ∗ owns (c : Thread nD τ) arg4 fullShare xr
        ∗ owns (c : Thread nD τ) arg5 fullShare w ∗ (∃ d, owns (c : Thread nD τ) arg6 fullShare d)
        ∗ (iprop(owns (c : Thread nD τ) arg2 fullShare a ∗ owns (c : Thread nD τ) arg3 fullShare xb ∗ owns (c : Thread nD τ) arg4 fullShare xr
            ∗ owns (c : Thread nD τ) arg5 fullShare w ∗ owns (c : Thread nD τ) arg6 fullShare (stepOut a xb xr w)) -∗ K ⟨⟩))
      ⊢ wp frame (wpE (defs₀ (F := F)) Variants.none c none) E (cc0__sage_kern i arg2 harg2 arg3 harg3 arg4 harg4 arg5 harg5 arg6 harg6) K := by
  simp only [cc0__sage_kern_eq_skeleton]; unfold cc0__sage_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

end Cert.KernelIdeal.Region

end
-- ==== Proof.KI.Data.lean ====
/-
  The pipeline's proof data.  The region finds its arrays at the entry contents.  At grid point `t = (b, i)` the four
  input windows hold: rows `512 i …` of batch `b`'s adjacency; the whole of batch `b`'s features; rows `512 i …` of
  batch `b`'s features; the projection.  The second and third read ONE array, the batched feature table, so each holds
  half of its share.  The body leaves every input as found and the output window at the projected tile of the four.
-/
import proofs.«117576_g20993800142880_cont_8to1_1634_2_alg».proof.Proof.KI.Body

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The tile point `t` stores, from the four input blocks there. -/
def tileAt (c : Dev nD) (t : Fin cfg0.N) : Vec F S1x512x32 .f32 :=
  stepOut (blockAt m c 0 t) (blockAt m c 1 t) (blockAt m c 2 t) (blockAt m c 3 t)

/-- The proof data of the one pipeline on core `c`. -/
def stepData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => tileAt m c t
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem entry_arrays (c : Dev nD) (w : Fin cfg0.W) : (stepData m 0 c).A w = atEntry m c (Pipeline.arrRef spec0 w) := by
  dsimp only [stepData]

theorem after_adj (c : Dev nD) (t : Fin cfg0.N) : (stepData m 0 c).after 0 t = blockAt m c 0 t := by dsimp only [stepData]
theorem after_feat (c : Dev nD) (t : Fin cfg0.N) : (stepData m 0 c).after 1 t = blockAt m c 1 t := by dsimp only [stepData]
theorem after_rows (c : Dev nD) (t : Fin cfg0.N) : (stepData m 0 c).after 2 t = blockAt m c 2 t := by dsimp only [stepData]
theorem after_proj (c : Dev nD) (t : Fin cfg0.N) : (stepData m 0 c).after 3 t = blockAt m c 3 t := by dsimp only [stepData]
theorem after_out (c : Dev nD) (t : Fin cfg0.N) : (stepData m 0 c).after 4 t = tileAt m c t := by dsimp only [stepData]

/-- The shares: the batched feature table's is halved between the two windows on it; every other array is held whole. -/
theorem share_adj (c : Dev nD) : (stepData m 0 c).share 0 = fullShare := by unfold Dat.share; rfl
theorem share_feat (c : Dev nD) : (stepData m 0 c).share 1 = fullShare.left := by unfold Dat.share; rfl
theorem share_rows (c : Dev nD) : (stepData m 0 c).share 2 = fullShare.right := by unfold Dat.share; rfl
theorem share_proj (c : Dev nD) : (stepData m 0 c).share 3 = fullShare := by unfold Dat.share; rfl
theorem share_out (c : Dev nD) : (stepData m 0 c).share 4 = fullShare := by unfold Dat.share; rfl

/-- An input window's current staging buffer holds its block at every point, fetched there or not: where it was not
    fetched its block index has not moved, and the body left the block in place. -/
theorem found_adj (c : Dev nD) (t : Fin cfg0.N) (d) : (stepData m 0 c).before 0 t d = blockAt m c 0 t :=
  ((stepData m 0 c).before_in_eq_fetched 0 rfl (fun _ => rfl) (fun _ _ _ => rfl)
    (fun t => by rw [after_adj]; unfold Dat.blockOf blockAt; rw [entry_arrays]; try rfl) t d).trans
    (by unfold Dat.fetched Dat.blockOf blockAt; rw [entry_arrays]; try rfl)
theorem found_feat (c : Dev nD) (t : Fin cfg0.N) (d) : (stepData m 0 c).before 1 t d = blockAt m c 1 t :=
  ((stepData m 0 c).before_in_eq_fetched 1 rfl (fun _ => rfl) (fun _ _ _ => rfl)
    (fun t => by rw [after_feat]; unfold Dat.blockOf blockAt; rw [entry_arrays]; try rfl) t d).trans
    (by unfold Dat.fetched Dat.blockOf blockAt; rw [entry_arrays]; try rfl)
theorem found_rows (c : Dev nD) (t : Fin cfg0.N) (d) : (stepData m 0 c).before 2 t d = blockAt m c 2 t :=
  ((stepData m 0 c).before_in_eq_fetched 2 rfl (fun _ => rfl) (fun _ _ _ => rfl)
    (fun t => by rw [after_rows]; unfold Dat.blockOf blockAt; rw [entry_arrays]; try rfl) t d).trans
    (by unfold Dat.fetched Dat.blockOf blockAt; rw [entry_arrays]; try rfl)
theorem found_proj (c : Dev nD) (t : Fin cfg0.N) (d) : (stepData m 0 c).before 3 t d = blockAt m c 3 t :=
  ((stepData m 0 c).before_in_eq_fetched 3 rfl (fun _ => rfl) (fun _ _ _ => rfl)
    (fun t => by rw [after_proj]; unfold Dat.blockOf blockAt; rw [entry_arrays]; try rfl) t d).trans
    (by unfold Dat.fetched Dat.blockOf blockAt; rw [entry_arrays]; try rfl)

/-- What the body is called with at point `t`, the windows one by one, -/
def stepPre (c : Dev nD) (t : Fin cfg0.N) : sProp 𝕄 :=
  iprop((stepData m 0 c).Φ t.castSucc ∗ (stepData m 0 c).owesAt () t.castSucc
    ∗ (∃ d, owns (c : Thread nD τ) (st0_0 t) fullShare ((stepData m 0 c).before 0 t d))
    ∗ (∃ d, owns (c : Thread nD τ) (st0_1 t) fullShare ((stepData m 0 c).before 1 t d))
    ∗ (∃ d, owns (c : Thread nD τ) (st0_2 t) fullShare ((stepData m 0 c).before 2 t d))
    ∗ (∃ d, owns (c : Thread nD τ) (st0_3 t) fullShare ((stepData m 0 c).before 3 t d))
    ∗ (∃ d, owns (c : Thread nD τ) (st0_4 t) fullShare ((stepData m 0 c).before 4 t d)))

/-- and what it returns. -/
def stepPost (c : Dev nD) (t : Fin cfg0.N) : sProp 𝕄 :=
  iprop((stepData m 0 c).Φ t.succ ∗ (stepData m 0 c).owesAt () t.succ
    ∗ owns (c : Thread nD τ) (st0_0 t) fullShare ((stepData m 0 c).after 0 t)
    ∗ owns (c : Thread nD τ) (st0_1 t) fullShare ((stepData m 0 c).after 1 t)
    ∗ owns (c : Thread nD τ) (st0_2 t) fullShare ((stepData m 0 c).after 2 t)
    ∗ owns (c : Thread nD τ) (st0_3 t) fullShare ((stepData m 0 c).after 3 t)
    ∗ owns (c : Thread nD τ) (st0_4 t) fullShare ((stepData m 0 c).after 4 t))

/-- The body at any point: the inputs' buffers hold their blocks, so the step's triple applies; the invariant and what the
    core owes pass through unread. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [found_adj, found_feat, found_rows, found_proj]
  rw [show (stepData m 0 c).Φ t.succ = (stepData m 0 c).Φ t.castSucc from rfl,
    show (stepData m 0 c).owesAt () t.succ = (stepData m 0 c).owesAt () t.castSucc from rfl,
    after_adj, after_feat, after_rows, after_proj, after_out]
  iintro ⟨HΦ, Ho, ⟨%d0, H0⟩, ⟨%d1, H1⟩, ⟨%d2, H2⟩, ⟨%d3, H3⟩, ⟨%d4, H4⟩⟩
  iapply (step_runs c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem step_obligation (c : Dev nD) : BodyObligation (stepData (F := F) m 0 c) (defs₀ (F := F)) Variants.none () Set.univ := fun t => by
  rw [bigSep_W0, bigSep_W0]
  exact step_sound m c t

end Cert.KernelIdeal.Region

end
-- ==== Proof.KI.Launch.lean ====
/-
  The launch.  The region's five windows sit on FOUR arrays: the batched feature table is read through two windows,
  the batch's whole block and the tile's own rows.  So the launch cannot hold every window's array at the full share:
  the table's share is split in two at entry, one half a window, both halves read-only, and joined again at exit,
  where the last reshape needs only the kernel's result (held whole) and its own fresh buffer.
-/
import proofs.«117576_g20993800142880_cont_8to1_1634_2_alg».proof.Proof.KI.Data

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays at contents `G`, one by one at their shares: the adjacency, the two halves of the batched
    feature table, the projection, the result. -/
theorem arrays_open (c : Dev nD) (G : (w : Fin cfg0.W) → Buf (Elt F) ((cfg0.win w).arr.view.loc (c.tc : Thread nD τ))) :
    ((stepData m 0 c).arrays G : sProp 𝕄)
      = iprop((((c : Thread nD τ).loc main_arg1) ↦{fullShare} G 0)
          ∗ (((c : Thread nD τ).loc main_v0) ↦{fullShare.left} G 1)
          ∗ (((c : Thread nD τ).loc main_v0) ↦{fullShare.right} G 2)
          ∗ (((c : Thread nD τ).loc main_arg2) ↦{fullShare} G 3)
          ∗ (((c : Thread nD τ).loc main_v1) ↦{fullShare} G 4)) := by
  unfold Dat.arrays
  rw [bigSep_W0, share_adj, share_feat, share_rows, share_proj, share_out,
    (arr_whole0 0).set_eq_univ, (arr_whole0 1).set_eq_univ, (arr_whole0 3).set_eq_univ, (arr_whole0 4).set_eq_univ]

/-- The four buffers behind them, each whole, at contents `V`. -/
theorem arrBufs_open (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1)
          ∗ (((c : Thread nD τ).loc main_v0) ↦{fullShare} V main_v0)
          ∗ (((c : Thread nD τ).loc main_arg2) ↦{fullShare} V main_arg2)
          ∗ (((c : Thread nD τ).loc main_v1) ↦{fullShare} V main_v1)) := by
  unfold Pipeline.arrBufs
  exact bigSep_eq_bigSepL_of_eq [main_arg1, main_v0, main_arg2, main_v1] (by decide) (by decide) _

/-- At entry: the buffers behind the arrays, whole at the entry contents, make the windows' arrays — the batched feature
    table's points-to split in two along its share. -/
theorem entry_split (c : Dev nD) :
    (Pipeline.arrBufs (Ix := Unit) (Name := ℕ) (U := UR sig nD τ) (Lvl := ℕ) spec0 c (atEntry m c) : sProp 𝕄)
      ⊢ (stepData m 0 c).arrays ((stepData m 0 c).arrAt · 0) := by
  rw [arrays_open, arrBufs_open]
  iintro ⟨Ha, Hx, Hw, Ho⟩
  icases (pointsTo_share (PosShare.mem_left_op_right fullShare)).1 $$ Hx with ⟨Hl, Hr⟩
  isplitl [Ha]; · iexact Ha
  isplitl [Hl]; · iexact Hl
  isplitl [Hr]; · iexact Hr
  isplitl [Hw]; · iexact Hw
  iexact Ho

/-- What bypasses the region: the launched feature table and the result's buffer, as the entry finds them. -/
def bypass (c : Dev nD) : sProp 𝕄 :=
  iprop((((c : Thread nD τ).loc main_arg0) ↦{fullShare} atEntry m c main_arg0) ∗ (((c : Thread nD τ).loc main_v2) ↦{fullShare} atEntry m c main_v2))

/-- The kernel's batched result once every tile is written back. -/
def batchedOut (c : Dev nD) : S16x2048x32.Idx → Elt F .f32 := (stepData m 0 c).arrAt 4 cfg0.N

/-- The program's result: the batched result re-laid one row a node. -/
def nodeOut (c : Dev nD) : Buf (Elt F) ((c : Thread nD τ).loc main_v2) :=
  shapeCast S32768x32 (batchedOut m c) shapeCasts_S16x2048x32_S32768x32

/-- The same two buffers after the last reshape. -/
def bypassEnd (c : Dev nD) : sProp 𝕄 :=
  iprop((((c : Thread nD τ).loc main_arg0) ↦{fullShare} atEntry m c main_arg0) ∗ (((c : Thread nD τ).loc main_v2) ↦{fullShare} nodeOut m c))

/-- The buffers the last reshape touches. -/
abbrev lastRefs : Finset (DevRef τ sig) := {Proc.devRef .tc main_v1, Proc.devRef .tc main_v2}

/-- From the region's exit — the windows' arrays at their final contents, the bypassing buffers as at entry — the last
    reshape runs, reading the kernel's result and writing the program's, and hands everything back. -/
theorem last_reshape (c : Dev nD) (Q' : PUnit → sProp 𝕄) :
    iprop((iprop((stepData m 0 c).arrays ((stepData m 0 c).arrAt · cfg0.N) ∗ bypassEnd m c) -∗ Q' ⟨⟩)
        ∗ boundary (c.tc : Thread nD τ) ∗ (stepData m 0 c).arrays ((stepData m 0 c).arrAt · cfg0.N) ∗ bypass m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_open]
  unfold bypass bypassEnd
  simp only [Pipeline.chain_cons, Pipeline.chain_nil]
  have hS : ∀ op ∈ (hostOps1 : List (HloOp τ sig (Elt F))), op.bufs ⊆ lastRefs := by
    intro op hop
    simp only [hostOps1, List.mem_singleton] at hop
    subst hop
    exact (StableHlo.reshape_bufs ..).le
  have hf : ∀ op ∈ (hostOps1 : List (HloOp τ sig (Elt F))), op.fresh = ∅ :=
    fun op hop => (List.forall_iff_forall_mem.mp suffix_fresh) op hop
  have hne : (Proc.devRef (τ := τ) .tc main_v1 : DevRef τ sig) ≠ Proc.devRef .tc main_v2 := StableHlo.devRef_ne_of_ne (by decide)
  -- the entry valuation with the kernel's result at its final contents
  let W : Valuation τ sig (Elt F) := Function.update (entryVal m c) (Proc.devRef .tc main_v1) (batchedOut m c)
  have hW1 : W (Proc.devRef .tc main_v1) = batchedOut m c := Function.update_self ..
  have hW2 : W (Proc.devRef .tc main_v2) = atEntry m c main_v2 := Function.update_of_ne hne.symm ..
  have hheld : ∀ V' : Valuation τ sig (Elt F), (StableHlo.held (c.tc : Thread nD τ) lastRefs V' : sProp 𝕄)
      = iprop((((c : Thread nD τ).loc main_v1) ↦{fullShare} V' (Proc.devRef .tc main_v1)) ∗ (((c : Thread nD τ).loc main_v2) ↦{fullShare} V' (Proc.devRef .tc main_v2))) := by
    intro V'
    unfold StableHlo.held lastRefs
    rw [bigSep_insert (by rw [Finset.mem_singleton]; exact hne), bigSep_singleton]
    rfl
  -- the reshape leaves the kernel's result alone and writes the program's
  have hA1 : StableHlo.after hostOps1 W (Proc.devRef .tc main_v1) = batchedOut m c :=
    (StableHlo.after_of_forall_not_mem (b := Proc.devRef .tc main_v1) _ _ (List.forall_iff_forall_mem.mp (by
      simp only [hostOps1, List.Forall, StableHlo.reshape_writes, Finset.mem_singleton]
      exact hne))).trans hW1
  have hA2 : StableHlo.after hostOps1 W (Proc.devRef .tc main_v2) = nodeOut m c := by
    unfold nodeOut
    dsimp only [hostOps1]
    after_results
    rw [hW1]
    rfl
  have step := StableHlo.wp_seq (defs := Pipeline.defs (fun q => (cfgs q).toPCfg (Val := Elt F)) defs₀) (Ix := Unit) (Name := ℕ) (U := UR sig nD τ) (Lvl := ℕ)
    (Variants.lift Variants.none) none Set.univ c lastRefs (fun _ => (Pure.pure PUnit.unit : Prog _ PUnit)) (K := Q') hostOps1 hS hf W
  rw [hheld, hheld, hW1, hW2, hA1, hA2] at step
  iintro ⟨Hk, Hb, ⟨Ha, Hl, Hr, Hw, Ho⟩, ⟨H0, H2⟩⟩
  iapply step $$ [Hb Ho H2]
  · isplitl [Hb]; · iexact Hb
    isplitl [Ho]; · iexact Ho
    iexact H2
  iintro ⟨Hb, Ho, H2⟩
  rw [wp_pure]
  imodintro
  iapply Hk
  isplitl [Ha Hl Hr Hw Ho]
  · isplitl [Ha]; · iexact Ha
    isplitl [Hl]; · iexact Hl
    isplitl [Hr]; · iexact Hr
    isplitl [Hw]; · iexact Hw
    iexact Ho
  isplitl [H0]; · iexact H0
  iexact H2

/-- What the final memory is read for, beside the windows' arrays: the launched feature table still as found, and the
    program's result. -/
def endsWith (c : Dev nD) (s : MemSt nD τ sig (Elt F)) : Prop :=
  s.mem ((c.tc : Thread nD τ).loc main_arg0) = atEntry m c main_arg0 ∧ s.mem ((c.tc : Thread nD τ).loc main_v2) = nodeOut m c

/-- THE RUN.  From any memory with zero counters every weakly fair execution of the program terminates; the result
    buffer then holds the kernel's batched result re-laid one row a node, and the three arguments are as launched. -/
theorem region_run :
    θ_run defs (onTc (τ := τ) (main (F := F))) ⟨m, fun _ => 0, ρ⟩ (fun r => ∀ c : Dev nD,
      r.2.mem ((c.tc : Thread nD τ).loc main_v2) = nodeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_noSem_pf_tail (fun q => (cfgs q).toPCfg (Val := Elt F)) (fun q => (cfgs q).toPCfg_adm) (stepData m) () cellOf_inj 0
    winFacts₀0 (Pipeline.PreFacts.none _) emb₁ defs₀ Variants.none m ρ main (fun _ => Pipeline.chain [StableHlo.seq hostOps1])
    (hbody := fun c => (step_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := atEntry m) (hmain := main_around m Variants.none)
    (hsplit := entry_split m) (hpf := fun _ k => k.elim0)
    (X := fun _ => iprop(emp)) (Y := fun _ => iprop(emp)) (Z := bypass m) (Z' := bypassEnd m)
    (hX := fun c => by
      rw [Pipeline.unscopedRestP_none, unscopedRest0_eq]
      unfold bypass
      iintro ⟨H0, H2⟩
      isplitr; · iempintro
      isplitl [H0]; · iexact H0
      iexact H2)
    (hin := fun c => (show iprop(iprop(emp) ∗ _ ∗ (Pipeline.scopedRest spec0 c : sProp 𝕄)) ⊢ (Pipeline.scopedRest spec0 c : sProp 𝕄) from by
      iintro ⟨-, -, HR⟩
      iexact HR))
    (hout := fun c => (show (Pipeline.scopedRest spec0 c : sProp 𝕄) ⊢ iprop(iprop(emp) ∗ (Pipeline.scopedRest spec0 c : sProp 𝕄)) from by
      iintro HR
      isplitr; · iempintro
      iexact HR))
    (htail := last_reshape m)
    (QY := endsWith m)
    (hY := fun c s' => by
      unfold bypassEnd endsWith
      iintro ⟨-, ⟨H0, H2⟩, HSI⟩
      icombine HSI H0 gives %h0
      icombine HSI H2 gives %h2
      imodintro
      isplitr
      · ipureintro
        exact ⟨Buf.eq_of_forall_mem_univ h0, Buf.eq_of_forall_mem_univ h2⟩
      iexact HSI)
    (hQ := fun s h c => ⟨(h c).2.2.2, (h c).2.2.1.trans (atEntry_arg0 m c),
      (((h c).1 0).trans ((stepData m 0 c).arrAt_in 0 rfl _)).trans ((entry_arrays m c 0).trans (atEntry_arg1 m c)),
      (((h c).1 3).trans ((stepData m 0 c).arrAt_in 3 rfl _)).trans ((entry_arrays m c 3).trans (atEntry_arg2 m c))⟩)

end Cert.KernelIdeal.Region

end
-- ==== Proof.TileValue.lean ====
/-
  What one grid step of the kernel stores, read entry by entry at the ideal instance: row `r` of the adjacency tile
  against the batch's feature block, plus the row's own features, projected.
-/
import proofs.«117576_g20993800142880_cont_8to1_1634_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- The left operand's row coordinate is the output's row. -/
theorem lhs_agg_0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
/-- The left operand's column coordinate is the contraction index. -/
theorem lhs_agg_1 (i : S512x32.Idx) (q : dot_S512x2048_S2048x32_S512x32_1_0_0_1_n_n.contr.Idx) :
    (dot_S512x2048_S2048x32_S512x32_1_0_0_1_n_n.lhsIdx i q 1).val = (q ⟨0, by decide⟩).val :=
  dot_S512x2048_S2048x32_S512x32_1_0_0_1_n_n.lhsIdx_val_of_single rfl i q
/-- The right operand's row coordinate is the contraction index. -/
theorem rhs_agg_0 (i : S512x32.Idx) (q : dot_S512x2048_S2048x32_S512x32_1_0_0_1_n_n.contr.Idx) :
    (dot_S512x2048_S2048x32_S512x32_1_0_0_1_n_n.rhsIdx i q 0).val = (q ⟨0, by decide⟩).val :=
  dot_S512x2048_S2048x32_S512x32_1_0_0_1_n_n.rhsIdx_val_of_single rfl i q
/-- The right operand's column coordinate is the output's column. -/
theorem rhs_agg_1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- The aggregation product into the zero accumulator, at row `r` and feature `c`: the row of the left factor against the column of the right. -/
theorem matmul_agg_apply (A : FVec Ideal S512x2048 .f32) (B : FVec Ideal S2048x32 .f32) (r : Fin 512) (c : Fin 32) :
    matmul dot_S512x2048_S2048x32_S512x32_1_0_0_1_n_n none A B (constant (F := Ideal) S512x32 .f32 0x00000000#32) (ix2 r c)
      = ∑ k : Fin 2048, A (ix2 r k) * B (ix2 k c) := by
  refine (Ideal.matmul_constant_zero_apply dot_S512x2048_S2048x32_S512x32_1_0_0_1_n_n none A B (ix2 r c)).trans ?_
  rw [← Equiv.sum_comp (ValueIdx.contrEquiv1 dot_S512x2048_S2048x32_S512x32_1_0_0_1_n_n 2048 rfl rfl).symm]
  refine Finset.sum_congr rfl fun k _ => ?_
  have hk := ValueIdx.contrEquiv1_symm_val dot_S512x2048_S2048x32_S512x32_1_0_0_1_n_n 2048 rfl rfl k
  have el : dot_S512x2048_S2048x32_S512x32_1_0_0_1_n_n.lhsIdx (ix2 r c) ((ValueIdx.contrEquiv1 dot_S512x2048_S2048x32_S512x32_1_0_0_1_n_n 2048 rfl rfl).symm k) = ix2 r k := funext fun a => Fin.ext (by
    match a with
    | ⟨0, _⟩ => exact lhs_agg_0 _ _
    | ⟨1, _⟩ => exact (lhs_agg_1 _ _).trans hk)
  have er : dot_S512x2048_S2048x32_S512x32_1_0_0_1_n_n.rhsIdx (ix2 r c) ((ValueIdx.contrEquiv1 dot_S512x2048_S2048x32_S512x32_1_0_0_1_n_n 2048 rfl rfl).symm k) = ix2 k c := funext fun a => Fin.ext (by
    match a with
    | ⟨0, _⟩ => exact (rhs_agg_0 _ _).trans hk
    | ⟨1, _⟩ => exact rhs_agg_1 _ _)
  rw [el, er]

/-- The left operand's row coordinate is the output's row. -/
theorem lhs_proj_0 (i : S512x32.Idx) (q : dot_S512x32_S32x32_S512x32_1_0_0_1_n_n.contr.Idx) :
    (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
/-- The left operand's column coordinate is the contraction index. -/
theorem lhs_proj_1 (i : S512x32.Idx) (q : dot_S512x32_S32x32_S512x32_1_0_0_1_n_n.contr.Idx) :
    (dot_S512x32_S32x32_S512x32_1_0_0_1_n_n.lhsIdx i q 1).val = (q ⟨0, by decide⟩).val :=
  dot_S512x32_S32x32_S512x32_1_0_0_1_n_n.lhsIdx_val_of_single rfl i q
/-- The right operand's row coordinate is the contraction index. -/
theorem rhs_proj_0 (i : S512x32.Idx) (q : dot_S512x32_S32x32_S512x32_1_0_0_1_n_n.contr.Idx) :
    (dot_S512x32_S32x32_S512x32_1_0_0_1_n_n.rhsIdx i q 0).val = (q ⟨0, by decide⟩).val :=
  dot_S512x32_S32x32_S512x32_1_0_0_1_n_n.rhsIdx_val_of_single rfl i q
/-- The right operand's column coordinate is the output's column. -/
theorem rhs_proj_1 (i : S512x32.Idx) (q : dot_S512x32_S32x32_S512x32_1_0_0_1_n_n.contr.Idx) :
    (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- The projection product into the zero accumulator, at row `r` and output feature `c`. -/
theorem matmul_proj_apply (A : FVec Ideal S512x32 .f32) (B : FVec Ideal S32x32 .f32) (r : Fin 512) (c : Fin 32) :
    matmul dot_S512x32_S32x32_S512x32_1_0_0_1_n_n none A B (constant (F := Ideal) S512x32 .f32 0x00000000#32) (ix2 r c)
      = ∑ k : Fin 32, A (ix2 r k) * B (ix2 k c) := by
  refine (Ideal.matmul_constant_zero_apply dot_S512x32_S32x32_S512x32_1_0_0_1_n_n none A B (ix2 r c)).trans ?_
  rw [← Equiv.sum_comp (ValueIdx.contrEquiv1 dot_S512x32_S32x32_S512x32_1_0_0_1_n_n 32 rfl rfl).symm]
  refine Finset.sum_congr rfl fun k _ => ?_
  have hk := ValueIdx.contrEquiv1_symm_val dot_S512x32_S32x32_S512x32_1_0_0_1_n_n 32 rfl rfl k
  have el : dot_S512x32_S32x32_S512x32_1_0_0_1_n_n.lhsIdx (ix2 r c) ((ValueIdx.contrEquiv1 dot_S512x32_S32x32_S512x32_1_0_0_1_n_n 32 rfl rfl).symm k) = ix2 r k := funext fun a => Fin.ext (by
    match a with
    | ⟨0, _⟩ => exact lhs_proj_0 _ _
    | ⟨1, _⟩ => exact (lhs_proj_1 _ _).trans hk)
  have er : dot_S512x32_S32x32_S512x32_1_0_0_1_n_n.rhsIdx (ix2 r c) ((ValueIdx.contrEquiv1 dot_S512x32_S32x32_S512x32_1_0_0_1_n_n 32 rfl rfl).symm k) = ix2 k c := funext fun a => Fin.ext (by
    match a with
    | ⟨0, _⟩ => exact (rhs_proj_0 _ _).trans hk
    | ⟨1, _⟩ => exact rhs_proj_1 _ _)
  rw [el, er]

/-- The stored tile at row `r`, output feature `o`. -/
theorem tile_apply (a : Vec Ideal S1x512x2048 .f32) (xb : Vec Ideal S1x2048x32 .f32) (xr : Vec Ideal S1x512x32 .f32)
    (w : Vec Ideal S32x32 .f32) (r : Fin 512) (o : Fin 32) :
    k0_pay1 (F := Ideal) a xb xr w (ix3 (0 : Fin 1) r o)
      = ∑ j : Fin 32, ((∑ k : Fin 2048, a (ix3 (0 : Fin 1) r k) * xb (ix3 (0 : Fin 1) k j)) + xr (ix3 (0 : Fin 1) r j)) * w (ix2 j o) := by
  unfold k0_pay1
  refine (shapeCast_ab_1ab_apply _ shapeCasts_S512x32_S1x512x32 (0 : Fin 1) r o).trans ?_
  refine (matmul_proj_apply _ w r o).trans ?_
  refine Finset.sum_congr rfl fun j _ => ?_
  refine congrArg (· * w (ix2 j o)) ?_
  refine (addf_apply _ _ (ix2 r j)).trans ?_
  refine congrArg₂ (· + ·) ?_ (shapeCast_1ab_ab_apply xr shapeCasts_S1x512x32_S512x32 r j)
  refine (matmul_agg_apply _ _ r j).trans ?_
  refine Finset.sum_congr rfl fun k _ => ?_
  exact congrArg₂ (· * ·) (shapeCast_1ab_ab_apply a shapeCasts_S1x512x2048_S512x2048 r k)
    (shapeCast_1ab_ab_apply xb shapeCasts_S1x2048x32_S2048x32 k j)

end Cert.KernelIdeal.TileValue

end
-- ==== Proof.Spec.lean ====
/-
  The mathematics both programs compute, stated once over literal shapes.

  A graph batch: 16 batches of 2048 nodes, 32 features a node.  Node `r` of batch `b` is row `b * 2048 + r` of the
  feature table `x : [32768, 32]`.  With `adj : [16, 2048, 2048]` the dense adjacency of each batch and `W : [32, 32]`
  the projection, the neighbourhood aggregate of node `(b, r)` at feature `j` is
      agg b r j = Σ_k adj(b, r, k) · x(b * 2048 + k, j).
  The kernel adds the node's own features BEFORE projecting (`fused`), the reference projects the two summands apart
  and adds afterwards (`split`).  Over the reals these agree because the product distributes over the sum; on the
  extended reals that law needs every entry to be a real number, which is what `IsReal` says of an array.
-/
import Idealize.ShloMosaic.PureOps.Ideal
import Idealize.ShloMosaic.Lib.ValueIdx

noncomputable section

namespace Cert.Sage

open Idealize.ShloMosaic Idealize.ShloMosaic.ValueIdx

/-- The feature table and the result: one row a node. -/
abbrev Nodes : Shape := ⟨2, ![32768, 32]⟩
/-- The dense adjacency, batch by batch. -/
abbrev Adj : Shape := ⟨3, ![16, 2048, 2048]⟩
/-- The projection. -/
abbrev Proj : Shape := ⟨2, ![32, 32]⟩
/-- The feature table seen batch by batch. -/
abbrev Batched : Shape := ⟨3, ![16, 2048, 32]⟩

/-- Node `r` of batch `b` as a row of the feature table. -/
def node (b : Fin 16) (r : Fin 2048) : Fin 32768 := ⟨b.val * 2048 + r.val, by have := b.isLt; have := r.isLt; omega⟩

/-- The neighbourhood aggregate of node `(b, r)` at feature `j`. -/
def agg (x : Nodes.Idx → EReal) (adj : Adj.Idx → EReal) (b : Fin 16) (r : Fin 2048) (j : Fin 32) : EReal :=
  ∑ k : Fin 2048, adj (ix3 b r k) * x (ix2 (node b k) j)

/-- Aggregate plus the node's own features, then projected: the kernel's arrangement. -/
def fused (x : Nodes.Idx → EReal) (adj : Adj.Idx → EReal) (W : Proj.Idx → EReal) (b : Fin 16) (r : Fin 2048) (o : Fin 32) : EReal :=
  ∑ j : Fin 32, (agg x adj b r j + x (ix2 (node b r) j)) * W (ix2 j o)

/-- The node's own features projected, plus the aggregate projected: the reference's arrangement. -/
def split (x : Nodes.Idx → EReal) (adj : Adj.Idx → EReal) (W : Proj.Idx → EReal) (b : Fin 16) (r : Fin 2048) (o : Fin 32) : EReal :=
  (∑ j : Fin 32, x (ix2 (node b r) j) * W (ix2 j o)) + ∑ j : Fin 32, agg x adj b r j * W (ix2 j o)

/-- Every entry of the array is a real number. -/
def IsReal {ι : Type} (f : ι → EReal) : Prop := ∀ i, ∃ v : ℝ, f i = (v : EReal)

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- On real entries the two arrangements agree: the projection distributes over the sum of aggregate and own features. -/
theorem fused_eq_split (x : Nodes.Idx → EReal) (adj : Adj.Idx → EReal) (W : Proj.Idx → EReal)
    (hx : IsReal x) (hadj : IsReal adj) (hW : IsReal W) (b : Fin 16) (r : Fin 2048) (o : Fin 32) :
    fused x adj W b r o = split x adj W b r o := by
  -- real witnesses for every entry
  choose xr hxr using hx
  choose ar har using hadj
  choose wr hwr using hW
  -- the aggregate is the coercion of a real sum of real products
  have hagg : ∀ j : Fin 32, agg x adj b r j
      = ((∑ k : Fin 2048, ar (ix3 b r k) * xr (ix2 (node b k) j) : ℝ) : EReal) := by
    intro j
    unfold agg
    rw [coe_sum]
    refine Finset.sum_congr rfl fun k _ => ?_
    rw [har, hxr, EReal.coe_mul]
  -- each summand of either arrangement is the coercion of a real product
  have hf : ∀ j : Fin 32, (agg x adj b r j + x (ix2 (node b r) j)) * W (ix2 j o)
      = ((((∑ k : Fin 2048, ar (ix3 b r k) * xr (ix2 (node b k) j)) + xr (ix2 (node b r) j))
          * wr (ix2 j o) : ℝ) : EReal) := by
    intro j
    rw [hagg, hxr, hwr, ← EReal.coe_add, ← EReal.coe_mul]
  have hs1 : ∀ j : Fin 32, x (ix2 (node b r) j) * W (ix2 j o)
      = ((xr (ix2 (node b r) j) * wr (ix2 j o) : ℝ) : EReal) := by
    intro j
    rw [hxr, hwr, ← EReal.coe_mul]
  have hs2 : ∀ j : Fin 32, agg x adj b r j * W (ix2 j o)
      = (((∑ k : Fin 2048, ar (ix3 b r k) * xr (ix2 (node b k) j)) * wr (ix2 j o) : ℝ) : EReal) := by
    intro j
    rw [hagg, hwr, ← EReal.coe_mul]
  unfold fused split
  rw [Finset.sum_congr rfl fun j _ => hf j, Finset.sum_congr rfl fun j _ => hs1 j,
    Finset.sum_congr rfl fun j _ => hs2 j, ← coe_sum, ← coe_sum, ← coe_sum, ← EReal.coe_add]
  -- in the reals the product distributes over the sum
  congr 1
  rw [← Finset.sum_add_distrib]
  refine Finset.sum_congr rfl fun j _ => ?_
  rw [add_mul, add_comm]

/-- The kernel's arrangement as an array over batched coordinates. -/
def fusedArr (x : Nodes.Idx → EReal) (adj : Adj.Idx → EReal) (W : Proj.Idx → EReal) : Batched.Idx → EReal :=
  fun i => fused x adj W (i 0) (i 1) (i 2)

/-- The reference's arrangement as an array over batched coordinates. -/
def splitArr (x : Nodes.Idx → EReal) (adj : Adj.Idx → EReal) (W : Proj.Idx → EReal) : Batched.Idx → EReal :=
  fun i => split x adj W (i 0) (i 1) (i 2)

theorem fusedArr_eq_splitArr (x : Nodes.Idx → EReal) (adj : Adj.Idx → EReal) (W : Proj.Idx → EReal)
    (hx : IsReal x) (hadj : IsReal adj) (hW : IsReal W) : fusedArr x adj W = splitArr x adj W :=
  funext fun i => fused_eq_split x adj W hx hadj hW (i 0) (i 1) (i 2)

end Cert.Sage

end
-- ==== Proof.KIValue.lean ====
/-
  What the kernel's result holds, at the ideal instance.  Grid point `t = (b, i)` writes back the tile of rows
  `512 i … 512 i + 511` of batch `b`; its entry `(r, o)` is the fused arrangement of the specification at node
  `(b, 512 i + r)`, feature `o`: the adjacency tile's row against the batch's features is the neighbourhood aggregate,
  the tile's own rows of the features are the nodes' own features, and the projection is the whole of `W`.  The sixty-four
  tiles cover the batched result, so after the run it IS the fused arrangement, entry by entry.
-/
import proofs.«117576_g20993800142880_cont_8to1_1634_2_alg».proof.Proof.KI.Launch
import proofs.«117576_g20993800142880_cont_8to1_1634_2_alg».proof.Proof.TileValue
import proofs.«117576_g20993800142880_cont_8to1_1634_2_alg».proof.Proof.Spec

set_option maxRecDepth 16384

noncomputable section

namespace Cert.KernelIdeal.Region

open Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The five index maps over the grid: the adjacency tile and the tile's own rows move with the output tile, the
    batch's feature block follows its batch only, the projection stays put; the output's block indices are a batch
    below sixteen and a row block below four. -/
theorem grid_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 2) = 0 ∧ win0_3.index t (1 : Fin 2) = 0
    ∧ win0_4.index t (0 : Fin 3) ≤ 15 ∧ win0_4.index t (1 : Fin 3) ≤ 3 ∧ win0_4.index t (2 : Fin 3) = 0 :=
  (by decide +kernel : ∀ t : Fin grid0.N, _)

/-- Every output tile is some point's. -/
theorem grid_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The batched feature table at entry, read at node `(b, r)`, feature `j`, is the launched table's row of that node. -/
theorem batched_apply (c : Dev nD) (b : Fin 16) (r : Fin 2048) (j : Fin 32) :
    (atEntry m c main_v0 : S16x2048x32.Idx → Elt Ideal .f32) (ix3 b r j) = m ((c : Thread nD τ).loc main_arg0) (ix2 (Cert.Sage.node b r) j) := by
  rw [atEntry_v0 m c]
  exact shapeCast_apply _ _ (ix3 b r j) (ix2 (Cert.Sage.node b r) j) (by
    rewrite [Shape.rowMajor_val_two, Shape.rowMajor_val_three]; rfl)

/-- The adjacency tile at point `t`, row `r`, column `k`: the launched adjacency at the tile's batch and the row's node. -/
theorem adj_tile (c : Dev nD) (t : Fin cfg0.N) (bb : Fin 16) (rr : Fin 2048) (r : Fin 512) (k : Fin 2048)
    (h0 : win0_0.index t (0 : Fin 3) = bb.val) (h1 : win0_0.index t (1 : Fin 3) * 512 + r.val = rr.val) (h2 : win0_0.index t (2 : Fin 3) = 0) :
    (blockAt m c 0 t : S1x512x2048.Idx → Elt Ideal .f32) (ix3 (0 : Fin 1) r k) = m ((c : Thread nD τ).loc main_arg1) (ix3 bb rr k) := by
  unfold blockAt
  rw [View.read_apply]
  show atEntry m c main_arg1 _ = _
  rw [atEntry_arg1]
  congr 1
  funext a; apply Fin.ext
  match a with
  | ⟨0, _⟩ => show win0_0.index t (0 : Fin 3) * 1 + 1 * 0 = bb.val; omega
  | ⟨1, _⟩ => show win0_0.index t (1 : Fin 3) * 512 + 1 * r.val = rr.val; omega
  | ⟨2, _⟩ => show win0_0.index t (2 : Fin 3) * 2048 + 1 * k.val = k.val; omega

/-- The batch's feature block at point `t`, node `k`, feature `j`: the launched table's row of node `(bb, k)`. -/
theorem feat_block (c : Dev nD) (t : Fin cfg0.N) (bb : Fin 16) (k : Fin 2048) (j : Fin 32)
    (h0 : win0_1.index t (0 : Fin 3) = bb.val) (h1 : win0_1.index t (1 : Fin 3) = 0) (h2 : win0_1.index t (2 : Fin 3) = 0) :
    (blockAt m c 1 t : S1x2048x32.Idx → Elt Ideal .f32) (ix3 (0 : Fin 1) k j) = m ((c : Thread nD τ).loc main_arg0) (ix2 (Cert.Sage.node bb k) j) := by
  unfold blockAt
  rw [View.read_apply]
  show (atEntry m c main_v0 : S16x2048x32.Idx → Elt Ideal .f32) _ = _
  rw [← batched_apply m c bb k j]
  congr 1
  funext a; apply Fin.ext
  match a with
  | ⟨0, _⟩ => show win0_1.index t (0 : Fin 3) * 1 + 1 * 0 = bb.val; omega
  | ⟨1, _⟩ => show win0_1.index t (1 : Fin 3) * 2048 + 1 * k.val = k.val; omega
  | ⟨2, _⟩ => show win0_1.index t (2 : Fin 3) * 32 + 1 * j.val = j.val; omega

/-- The tile's own rows of the features at point `t`, row `r`, feature `j`: the launched table's row of node `(bb, rr)`. -/
theorem rows_tile (c : Dev nD) (t : Fin cfg0.N) (bb : Fin 16) (rr : Fin 2048) (r : Fin 512) (j : Fin 32)
    (h0 : win0_2.index t (0 : Fin 3) = bb.val) (h1 : win0_2.index t (1 : Fin 3) * 512 + r.val = rr.val) (h2 : win0_2.index t (2 : Fin 3) = 0) :
    (blockAt m c 2 t : S1x512x32.Idx → Elt Ideal .f32) (ix3 (0 : Fin 1) r j) = m ((c : Thread nD τ).loc main_arg0) (ix2 (Cert.Sage.node bb rr) j) := by
  unfold blockAt
  rw [View.read_apply]
  show (atEntry m c main_v0 : S16x2048x32.Idx → Elt Ideal .f32) _ = _
  rw [← batched_apply m c bb rr j]
  congr 1
  funext a; apply Fin.ext
  match a with
  | ⟨0, _⟩ => show win0_2.index t (0 : Fin 3) * 1 + 1 * 0 = bb.val; omega
  | ⟨1, _⟩ => show win0_2.index t (1 : Fin 3) * 512 + 1 * r.val = rr.val; omega
  | ⟨2, _⟩ => show win0_2.index t (2 : Fin 3) * 32 + 1 * j.val = j.val; omega

/-- The projection's block is the whole launched projection. -/
theorem proj_block (c : Dev nD) (t : Fin cfg0.N) (j o : Fin 32)
    (h0 : win0_3.index t (0 : Fin 2) = 0) (h1 : win0_3.index t (1 : Fin 2) = 0) :
    (blockAt m c 3 t : S32x32.Idx → Elt Ideal .f32) (ix2 j o) = m ((c : Thread nD τ).loc main_arg2) (ix2 j o) := by
  unfold blockAt
  rw [View.read_apply]
  show atEntry m c main_arg2 _ = _
  rw [atEntry_arg2]
  congr 1
  funext a; apply Fin.ext
  match a with
  | ⟨0, _⟩ => show win0_3.index t (0 : Fin 2) * 32 + 1 * j.val = j.val; omega
  | ⟨1, _⟩ => show win0_3.index t (1 : Fin 2) * 32 + 1 * o.val = o.val; omega

/-- What point `t` writes back is its block of the fused arrangement of the launched arrays. -/
theorem flushed_tile (c : Dev nD) (t : Fin cfg0.N) :
    (stepData m 0 c).flushed 4 t = ((cfg0.win 4).blk t).view.read (Elt Ideal)
      (Cert.Sage.fusedArr (m ((c : Thread nD τ).loc main_arg0)) (m ((c : Thread nD τ).loc main_arg1)) (m ((c : Thread nD τ).loc main_arg2))) := by
  show (cfg0.win 4).cut (grid0.coords t) ((stepData m 0 c).after 4 t) = _
  rw [after_out]
  unfold tileAt stepOut
  rw [View.canon_unit_zero zero3]
  simp only [View.ld_unit_zero (S := S1x512x2048) zero3, View.ld_unit_zero (S := S1x2048x32) zero3, View.ld_unit_zero (S := S1x512x32) zero3, View.ld_unit_zero (S := S32x32) zero2]
  obtain ⟨a0, a1, a2, f0, f1, f2, r0, r1, r2, p0, p1, o0, o1, o2⟩ := grid_facts t
  funext j
  obtain ⟨z, r, o, rfl⟩ : ∃ (z : Fin 1) (r : Fin 512) (o : Fin 32), j = ix3 z r o := ⟨j 0, j 1, j 2, @eq_ix3 1 512 32 j⟩
  obtain rfl : z = 0 := Subsingleton.elim _ _
  -- the tile's batch and the row's node
  have hr : r.val < 512 := r.isLt
  let bb : Fin 16 := ⟨win0_4.index t (0 : Fin 3), by omega⟩
  let rr : Fin 2048 := ⟨win0_4.index t (1 : Fin 3) * 512 + r.val, by omega⟩
  show k0_pay1 (F := Ideal) (blockAt m c 0 t) (blockAt m c 1 t) (blockAt m c 2 t) (blockAt m c 3 t) (ix3 (0 : Fin 1) r o)
      = Cert.Sage.fusedArr (m ((c : Thread nD τ).loc main_arg0)) (m ((c : Thread nD τ).loc main_arg1)) (m ((c : Thread nD τ).loc main_arg2))
          (((cfg0.win 4).blk t).view.emb (ix3 (0 : Fin 1) r o))
  have hemb : ((cfg0.win 4).blk t).view.emb (ix3 (0 : Fin 1) r o) = (ix3 bb rr o : S16x2048x32.Idx) := by
    funext a; apply Fin.ext
    match a with
    | ⟨0, _⟩ => show win0_4.index t (0 : Fin 3) * 1 + 1 * 0 = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 32 + 1 * o.val = o.val; omega
  rw [hemb]
  refine (Cert.KernelIdeal.TileValue.tile_apply (blockAt m c 0 t) (blockAt m c 1 t) (blockAt m c 2 t) (blockAt m c 3 t) r o).trans ?_
  show _ = Cert.Sage.fused _ _ _ bb rr o
  unfold Cert.Sage.fused Cert.Sage.agg
  refine Finset.sum_congr rfl fun j' _ => ?_
  rw [rows_tile m c t bb rr r j' r0 (by show _ = win0_4.index t (1 : Fin 3) * 512 + r.val; omega) r2,
    proj_block m c t j' o p0 p1]
  congr 2
  refine Finset.sum_congr rfl fun k _ => ?_
  rw [adj_tile m c t bb rr r k a0 (by show _ = win0_4.index t (1 : Fin 3) * 512 + r.val; omega) a2,
    feat_block m c t bb k j' f0 f1 f2]

/-- An entry of the batched result is in point `t`'s tile iff each coordinate is in the tile's range on its axis. -/
theorem mem_tile (t : Fin cfg0.N) (i : S16x2048x32.Idx) :
    i ∈ ((cfg0.win 4).blk t).view.set ↔ ∀ a : Fin 3, win0_4.index t a * S1x512x32.size a ≤ (i a).val ∧ (i a).val < win0_4.index t a * S1x512x32.size a + S1x512x32.size a := by
  show i ∈ ((View.whole main_v1).slice (win0_4.rect t)).set ↔ _
  rw [View.set_slice_whole, Rect.mem_set_unit]
  exact Iff.rfl

/-- Every entry is in some written-back tile: the one of its batch and of its row's block of 512. -/
theorem tiles_cover (i : S16x2048x32.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 32 := (i 2).isLt
  obtain ⟨t, ht⟩ := grid_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 32 ≤ (i 2).val ∧ (i 2).val < win0_4.index t (2 : Fin 3) * 32 + 32; omega

/-- THE KERNEL'S BATCHED RESULT after the run is the fused arrangement of the launched arrays. -/
theorem batched_is_fused (c : Dev nD) :
    batchedOut m c = Cert.Sage.fusedArr (m ((c : Thread nD τ).loc main_arg0)) (m ((c : Thread nD τ).loc main_arg1)) (m ((c : Thread nD τ).loc main_arg2)) :=
  (stepData m 0 c).arrAt_eq_of_cover 4 _ (fun t _ => flushed_tile m c t) tiles_cover

end Cert.KernelIdeal.Region

end
-- ==== Proof.RefSide.lean ====
/-
  The reference's result before its last reshape, read entry by entry: the node's own features projected plus the
  neighbourhood aggregate projected (`Cert.Sage.splitArr`).
-/
import proofs.«117576_g20993800142880_cont_8to1_1634_2_alg».proof.Proof.Gen.ReferenceIdeal.Read
import proofs.«117576_g20993800142880_cont_8to1_1634_2_alg».proof.Proof.Spec

noncomputable section

namespace Cert.ReferenceIdeal.RefValue

open Cert.ReferenceIdeal Cert.ReferenceIdeal.Read Idealize.ShloMosaic Idealize.ShloMosaic.ValueIdx

/-- Entry `(b, r, o)` of the batched view lies at row `node b r`, column `o` of the flat table: the row-major position
    `((b * 2048 + r) * 32 + o)` has quotient `b * 2048 + r` and remainder `o` by 32. -/
theorem flat_of_batched (b : Fin 16) (r : Fin 2048) (o : Fin 32) :
    idx_main_v1 (ix3 b r o) = ix2 (Cert.Sage.node b r) o := by
  funext a
  refine Fin.ext ?_
  match a with
  | ⟨0, _⟩ =>
    show ((b.val * 2048 + r.val) * 32 + o.val) / 32 = b.val * 2048 + r.val
    have := o.isLt; omega
  | ⟨1, _⟩ =>
    show ((b.val * 2048 + r.val) * 32 + o.val) % 32 = o.val
    have := o.isLt; omega

/-- The same position read for the feature table's own batched view. -/
theorem flat_of_batched_v2 (b : Fin 16) (r : Fin 2048) (o : Fin 32) :
    idx_main_v2 (ix3 b r o) = ix2 (Cert.Sage.node b r) o := flat_of_batched b r o

/-- The same position read for the projected aggregate's batched view. -/
theorem flat_of_batched_v6 (b : Fin 16) (r : Fin 2048) (o : Fin 32) :
    idx_main_v6 (ix3 b r o) = ix2 (Cert.Sage.node b r) o := flat_of_batched b r o

/-- Conversely row `node b r`, column `j` of the flat table is entry `(b, r, j)` of the batched view. -/
theorem batched_of_flat (b : Fin 16) (r : Fin 2048) (j : Fin 32) :
    idx_main_v4 (ix2 (Cert.Sage.node b r) j) = ix3 b r j := by
  funext a
  refine Fin.ext ?_
  match a with
  | ⟨0, _⟩ =>
    show ((b.val * 2048 + r.val) * 32 + j.val) / 65536 = b.val
    have := r.isLt; have := j.isLt; omega
  | ⟨1, _⟩ =>
    show ((b.val * 2048 + r.val) * 32 + j.val) / 32 % 2048 = r.val
    have := r.isLt; have := j.isLt; omega
  | ⟨2, _⟩ =>
    show ((b.val * 2048 + r.val) * 32 + j.val) % 32 = j.val
    have := j.isLt; omega

/-- The projection of a table row: the left factor runs along row `n`. -/
theorem lidx_v0_ix2 (n : Fin 32768) (o k : Fin 32) : lidx_main_v0 (ix2 n o) k = ix2 n k := by
  funext a; match a with | ⟨0, _⟩ => rfl | ⟨1, _⟩ => rfl

/-- The projection of a table row: the right factor runs down column `o`. -/
theorem ridx_v0_ix2 (n : Fin 32768) (o k : Fin 32) : ridx_main_v0 (ix2 n o) k = ix2 k o := by
  funext a; match a with | ⟨0, _⟩ => rfl | ⟨1, _⟩ => rfl

theorem lidx_v5_ix2 (n : Fin 32768) (o k : Fin 32) : lidx_main_v5 (ix2 n o) k = ix2 n k := by
  funext a; match a with | ⟨0, _⟩ => rfl | ⟨1, _⟩ => rfl

theorem ridx_v5_ix2 (n : Fin 32768) (o k : Fin 32) : ridx_main_v5 (ix2 n o) k = ix2 k o := by
  funext a; match a with | ⟨0, _⟩ => rfl | ⟨1, _⟩ => rfl

/-- The batched product: the adjacency's row `r` of batch `b` … -/
theorem lidx_v3_ix3 (b : Fin 16) (r : Fin 2048) (j : Fin 32) (k : Fin 2048) :
    lidx_main_v3 (ix3 b r j) k = ix3 b r k := by
  funext a; match a with | ⟨0, _⟩ => rfl | ⟨1, _⟩ => rfl | ⟨2, _⟩ => rfl

/-- … against column `j` of the same batch's feature block. -/
theorem ridx_v3_ix3 (b : Fin 16) (r : Fin 2048) (j : Fin 32) (k : Fin 2048) :
    ridx_main_v3 (ix3 b r j) k = ix3 b k j := by
  funext a; match a with | ⟨0, _⟩ => rfl | ⟨1, _⟩ => rfl | ⟨2, _⟩ => rfl

/-- The first summand: the node's own features projected. -/
theorem own_apply (x0 : (⟨S32768x32, .f32⟩ : BufTy).Contents (Elt Ideal)) (x2 : (⟨S32x32, .f32⟩ : BufTy).Contents (Elt Ideal))
    (b : Fin 16) (r : Fin 2048) (o : Fin 32) :
    val_main_v1 (F := Ideal) x0 x2 (ix3 b r o) = ∑ j : Fin 32, x0 (ix2 (Cert.Sage.node b r) j) * x2 (ix2 j o) := by
  rw [val_main_v1_apply, flat_of_batched, val_main_v0_apply]
  refine Finset.sum_congr rfl fun j _ => ?_
  rw [lidx_v0_ix2, ridx_v0_ix2]

/-- The batched product flattened back to the table is the neighbourhood aggregate. -/
theorem agg_apply (x0 : (⟨S32768x32, .f32⟩ : BufTy).Contents (Elt Ideal)) (x1 : (⟨S16x2048x2048, .f32⟩ : BufTy).Contents (Elt Ideal))
    (b : Fin 16) (r : Fin 2048) (j : Fin 32) :
    val_main_v4 (F := Ideal) x0 x1 (ix2 (Cert.Sage.node b r) j) = Cert.Sage.agg x0 x1 b r j := by
  rw [val_main_v4_apply, batched_of_flat, val_main_v3_apply]
  unfold Cert.Sage.agg
  refine Finset.sum_congr rfl fun k _ => ?_
  rw [val_main_v2_apply, lidx_v3_ix3, ridx_v3_ix3, flat_of_batched_v2]

/-- The second summand: the aggregate projected. -/
theorem nbr_apply (x0 : (⟨S32768x32, .f32⟩ : BufTy).Contents (Elt Ideal)) (x1 : (⟨S16x2048x2048, .f32⟩ : BufTy).Contents (Elt Ideal))
    (x2 : (⟨S32x32, .f32⟩ : BufTy).Contents (Elt Ideal)) (b : Fin 16) (r : Fin 2048) (o : Fin 32) :
    val_main_v6 (F := Ideal) x0 x1 x2 (ix3 b r o) = ∑ j : Fin 32, Cert.Sage.agg x0 x1 b r j * x2 (ix2 j o) := by
  rw [val_main_v6_apply, flat_of_batched_v6, val_main_v5_apply]
  refine Finset.sum_congr rfl fun j _ => ?_
  rw [lidx_v5_ix2, ridx_v5_ix2, agg_apply]

/-- The sum of the two projected summands, over batched coordinates, is the reference's arrangement of the specification. -/
theorem batched_eq_split (x0 : (⟨S32768x32, .f32⟩ : BufTy).Contents (Elt Ideal)) (x1 : (⟨S16x2048x2048, .f32⟩ : BufTy).Contents (Elt Ideal))
    (x2 : (⟨S32x32, .f32⟩ : BufTy).Contents (Elt Ideal)) :
    val_main_v7 (F := Ideal) x0 x1 x2 = Cert.Sage.splitArr x0 x1 x2 := by
  funext i
  obtain ⟨b, r, o, rfl⟩ : ∃ b r o, i = ix3 b r o := ⟨i 0, i 1, i 2, eq_ix3 i⟩
  rw [val_main_v7_apply, own_apply, nbr_apply]
  rfl

end Cert.ReferenceIdeal.RefValue

end
-- ==== Proof.Finite.lean ====
/-
  From the precondition to real entries: the three inputs pass `|v| < +inf` everywhere, so every entry of each is a
  real number.
-/
import proofs.«117576_g20993800142880_cont_8to1_1634_2_alg».proof.Pre_finite_inputs
import proofs.«117576_g20993800142880_cont_8to1_1634_2_alg».proof.Proof.Spec
import Idealize.ShloMosaic.Lib.ReduceAll

noncomputable section

namespace Cert.Sage

open Idealize.ShloMosaic Idealize.ShloMosaic.ValueIdx

/-- An extended real whose absolute value lies below the value of the word 0x7F800000, which is +inf, is a real
    number: neither infinity has an absolute value below +inf. -/
theorem exists_real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have h' : BitVec.ofBool (decide (max a (-a) < ⊤)) = 1#1 := h
  have hlt : max a (-a) < ⊤ := by
    by_contra hn
    rw [decide_eq_false hn] at h'
    exact absurd h' (by decide)
  rw [max_lt_iff] at hlt
  induction a using EReal.rec with
  | bot => simp at hlt
  | coe r => exact ⟨r, rfl⟩
  | top => simp at hlt

/-- The shape of rank 0 has one index. -/
instance subsingleton_rank0_idx : Subsingleton Cert.Pre_finite_inputs.S_.Idx := ⟨fun a b => funext fun d => d.elim0⟩

/-- Over any shape: if the conjunction over all entries of `|v| < +inf` is one, every entry of `v` is a real number. -/
theorem isReal_of_all_abs_lt_inf {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32)
    (e : Host.reduce IntOp.andi
          (cmpf .olt (Host.absf v) (broadcastInDim s ![] hb (constant (F := Ideal) Cert.Pre_finite_inputs.S_ .f32 0x7F800000#32)))
          (constantI Cert.Pre_finite_inputs.S_ 1 1#1) hr hu ix0 = 1#1) :
    IsReal v := by
  intro i
  have hi := Host.reduce_andi_all _ _ hr hu ix0 e i
  exact exists_real_of_abs_lt_inf (v i) hi

/-- Inputs of which the printed finiteness predicate is all ones have real entries. -/
theorem real_of_pre [Cert.Pre_finite_inputs.Facts]
    (x : FVec Ideal Cert.Pre_finite_inputs.S32768x32 .f32) (adj : FVec Ideal Cert.Pre_finite_inputs.S16x2048x2048 .f32)
    (W : FVec Ideal Cert.Pre_finite_inputs.S32x32 .f32)
    (h : Cert.Pre_finite_inputs.fn (F := Ideal) x adj W = fun _ => 1#1) :
    IsReal x ∧ IsReal adj ∧ IsReal W := by
  have h0 := congrFun h ix0
  dsimp only [Cert.Pre_finite_inputs.fn, andi] at h0
  obtain ⟨h12, h3⟩ := IntOp.andi_eq_one.1 h0
  obtain ⟨h1, h2⟩ := IntOp.andi_eq_one.1 h12
  exact ⟨isReal_of_all_abs_lt_inf _ _ _ x h1, isReal_of_all_abs_lt_inf _ _ _ adj h2,
    isReal_of_all_abs_lt_inf _ _ _ W h3⟩

end Cert.Sage

end
-- ==== Proof.lean ====
/-
  A graph layer over sixteen batches of 2048 nodes with 32 features: each node's output is its neighbourhood aggregate
  (the batch's dense adjacency row against the batch's features) plus its own features, projected by a 32 x 32 matrix.

  The kernel streams the adjacency in tiles of 512 rows; at each grid point it multiplies the tile by the batch's feature
  block, adds the tile's own rows of the features, projects, and stores the tile of the result.  The reference projects
  the features and the aggregate apart and adds the two projections.  On real entries — which the precondition gives:
  every input passes |v| < +inf — the projection distributes over the sum, so the two programs end with equal results,
  entry by entry, at the ideal instance.

  The batched feature table reaches the kernel through TWO windows (the batch's whole block, and the tile's own rows),
  so the frames are proved against the launch theorem that lets windows share an array, the table's share halved between
  the two; they hold at every float instance and need no precondition.  The idealization rewrote nothing, so
  `preserves` has nothing to state.
-/
import proofs.«117576_g20993800142880_cont_8to1_1634_2_alg».proof.Defs
import proofs.«117576_g20993800142880_cont_8to1_1634_2_alg».proof.Proof.Gen.Kernel
import proofs.«117576_g20993800142880_cont_8to1_1634_2_alg».proof.Proof.Gen.KernelIdeal
import proofs.«117576_g20993800142880_cont_8to1_1634_2_alg».proof.Proof.Gen.ReferenceIdeal
import proofs.«117576_g20993800142880_cont_8to1_1634_2_alg».proof.Proof.Gen.Pre_finite_inputs
import proofs.«117576_g20993800142880_cont_8to1_1634_2_alg».proof.Proof.Gen.ReferenceIdeal.Run
import proofs.«117576_g20993800142880_cont_8to1_1634_2_alg».proof.Proof.K.Launch
import proofs.«117576_g20993800142880_cont_8to1_1634_2_alg».proof.Proof.KI.Launch
import proofs.«117576_g20993800142880_cont_8to1_1634_2_alg».proof.Proof.KIValue
import proofs.«117576_g20993800142880_cont_8to1_1634_2_alg».proof.Proof.RefSide
import proofs.«117576_g20993800142880_cont_8to1_1634_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched: the run, its result dropped. -/
theorem frame_kernel : Cert.frame_Kernel := fun m ρ _ =>
  (θ_run Cert.Kernel.defs _ _).mono (fun _ h c => (h c).2) (Cert.Kernel.Region.region_run (F := Bits) m ρ)

/-- The same of the idealized kernel. -/
theorem frame_kernel_ideal : Cert.frame_KernelIdeal := fun m ρ _ =>
  (θ_run Cert.KernelIdeal.defs _ _).mono (fun _ h c => (h c).2) (Cert.KernelIdeal.Region.region_run (F := Ideal) m ρ)

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- Both programs end with the fused arrangement of the launched arrays, re-laid one row a node: the kernel by its
    sixty-four tiles, the reference by its split arrangement, which on real entries is the fused one. -/
theorem algebraic : Cert.algebraic_KernelIdeal_ReferenceIdeal := by
  intro m ρ m' ρ' hpre hagree
  refine ⟨fun c => Cert.KernelIdeal.Region.nodeOut m c, Cert.KernelIdeal.Region.region_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hW⟩ := Cert.Sage.real_of_pre _ _ _ (hpre c)
  rw [Cert.ReferenceIdeal.Read.val_main_v8_eq]
  unfold Cert.ReferenceIdeal.Read.val_main_v8
  rw [Cert.ReferenceIdeal.RefValue.batched_eq_split, (hagree c).1, (hagree c).2.1, (hagree c).2.2,
    ← Cert.Sage.fusedArr_eq_splitArr _ _ _ hx hadj hW]
  show _ = shapeCast Cert.KernelIdeal.S32768x32 (Cert.KernelIdeal.Region.batchedOut m c) _
  rw [Cert.KernelIdeal.Region.batched_is_fused]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
